-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 86
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S1x40, .f32⟩
  | .hbm, ⟨85, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S128x40, .f32⟩
  | .local _ .vmem, ⟨11, _⟩ => ⟨S1x40, .f32⟩
  | .local _ .vmem, ⟨12, _⟩ => ⟨S2000x40, .f32⟩
  | .local _ .vmem, ⟨13, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_11 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S50000x40.size a
  hwx1_5 : ∀ i : grid1.Coords, EltTy.bits .f32 = 32 ∨ (Rect.block (s := S50000x40) S2000x40.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v35) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v53) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x40, .f32⟩
  | 8 => ⟨S40, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S50000, .i1⟩
  | 18 => ⟨S_, .f32⟩
  | 19 => ⟨S50000, .f32⟩
  | 20 => ⟨S50000, .f32⟩
  | 21 => ⟨S50000, .f32⟩
  | 22 => ⟨S_, .f32⟩
  | 23 => ⟨S_, .f32⟩
  | 24 => ⟨S50000, .f32⟩
  | 25 => ⟨S50000, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S_, .f32⟩
  | 70 => ⟨S800000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .i1⟩
  | 78 => ⟨S_, .f32⟩
  | 79 => ⟨S50000, .f32⟩
  | 80 => ⟨S50000, .f32⟩
  | 81 => ⟨S50000, .f32⟩
  | 82 => ⟨S_, .f32⟩
  | 83 => ⟨S_, .f32⟩
  | 84 => ⟨S50000, .f32⟩
  | 85 => ⟨S50000, .f32⟩
  | 86 => ⟨S_, .f32⟩
  | 87 => ⟨S800000, .f32⟩
  | 88 => ⟨S_, .f32⟩
  | 89 => ⟨S50000, .f32⟩
  | 90 => ⟨S800000x1, .i32⟩
  | 91 => ⟨S50000, .f32⟩
  | 92 => ⟨S_, .f32⟩
  | 93 => ⟨S50000, .f32⟩
  | 94 => ⟨S50000, .i1⟩
  | 95 => ⟨S_, .f32⟩
  | 96 => ⟨S50000, .f32⟩
  | 97 => ⟨S50000, .f32⟩
  | 98 => ⟨S50000, .f32⟩
  | 99 => ⟨S_, .f32⟩
  | 100 => ⟨S_, .f32⟩
  | 101 => ⟨S50000, .f32⟩
  | 102 => ⟨S50000, .f32⟩
  | 103 => ⟨S50000x1, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000x1, .f32⟩
  | 120 => ⟨S50000x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x40, .f32⟩
  | 2 => ⟨S1x40, .f32⟩
  | 3 => ⟨S50000x40, .f32⟩
  | 4 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_cst_11 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_13 : Ref sig .tc := ⟨.hbm, 75, rfl⟩
abbrev main_v45 : Ref sig .tc := ⟨.hbm, 76, rfl⟩
abbrev main_v46 : Ref sig .tc := ⟨.hbm, 77, rfl⟩
abbrev main_cst_14 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_15 : Ref sig .tc := ⟨.hbm, 82, rfl⟩
abbrev main_call3_v0 : Ref sig .tc := ⟨.hbm, 83, rfl⟩
abbrev main_call3_v1 : Ref sig .tc := ⟨.hbm, 84, rfl⟩
abbrev main_v50 : Ref sig .tc := ⟨.hbm, 85, rfl⟩
abbrev main_cst_16 : Ref sig .tc := ⟨.hbm, 86, rfl⟩
abbrev main_v51 : Ref sig .tc := ⟨.hbm, 87, rfl⟩
abbrev main_cst_17 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_18 : Ref sig .tc := ⟨.hbm, 92, rfl⟩
abbrev main_v55 : Ref sig .tc := ⟨.hbm, 93, rfl⟩
abbrev main_v56 : Ref sig .tc := ⟨.hbm, 94, rfl⟩
abbrev main_cst_19 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_20 : Ref sig .tc := ⟨.hbm, 99, rfl⟩
abbrev main_call4_v0 : Ref sig .tc := ⟨.hbm, 100, rfl⟩
abbrev main_call4_v1 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_21 : Ref sig .tc := ⟨.hbm, 106, rfl⟩
abbrev main_v64 : Ref sig .tc := ⟨.hbm, 107, rfl⟩
abbrev main_v65 : Ref sig .tc := ⟨.hbm, 108, rfl⟩
abbrev main_c_22 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_23 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_call5_cst : Ref sig .tc := ⟨.hbm, 126, rfl⟩
abbrev main_call5_v0 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Spec.lean ====
/-
  The network both programs compute, as functions of whole arrays, written once.

  A graph-convolution layer over 50000 nodes and 800000 edges (src → dst):
    degNorm idx: per node, 1 / sqrt(max(degree, 1)) where the degree (the number of edges naming the node in `idx`) is
                 positive, and 1 where it is zero;
    aggregate  : scale each node's row by degNorm src, sum the rows of the edges' sources into the edges' destinations, scale
                 each row by degNorm dst;
    denseRelu  : max(a · W + b, 0), the bias broadcast along the rows;
    classify   : h · Wfc + bfc.
  The network is classify (denseRelu (aggregate (denseRelu (aggregate x) W1 b1)) W2 b2) Wfc bfc.  The degree
  normalisation, the gather and the scatter-add are the same host operations in both programs, so they are carried
  here as opaque functions and never opened; only the two dense stages differ (one program computes them block of
  2000 rows by block inside kernels, the other as whole-array products), and `layerRows` / `headRows` say entry by entry
  what the kernels' blocks hold.
-/
import proofs.«136340_j12859132084712_1_alg».proof.Proof.Gen.ReferenceIdeal
import Idealize.ShloMosaic.PureOps.Ideal
import Idealize.ShloMosaic.Lib.ValueIdx

noncomputable section

namespace Cert.Gcn

open Idealize.ShloMosaic Idealize.ShloMosaic.ValueIdx Cert.ReferenceIdeal Cert.ReferenceIdeal.Gen

variable {F : FTy → Type} [FloatOps F]

/-- 1 / sqrt(max(deg, 1)) where deg > 0, else 1; deg counts the occurrences of each node in `idx`. -/
def degNorm (idx : (⟨S800000, .i32⟩ : BufTy).Contents (Elt F)) : (⟨S50000, .f32⟩ : BufTy).Contents (Elt F) :=
  select (cmpf (F := F) .ogt (Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32))) (broadcastInDim S50000 ![] bcast_S_S50000 (constant S_ .f32 0x00000000#32))) (Host.rsqrt (maximumf (Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32))) (broadcastInDim S50000 ![] bcast_S_S50000 (constant S_ .f32 0x3F800000#32)))) (broadcastInDim S50000 ![] bcast_S_S50000 (id (constant S_ .f32 0x3F800000#32)))

/-- A per-node factor spread along the 128 features. -/
def rowScale (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The edges' source indices as the gather takes them: a negative index counts from the end. -/
def wrapped (src : (⟨S800000, .i32⟩ : BufTy).Contents (Elt F)) : (⟨S800000x1, .i32⟩ : BufTy).Contents (Elt F) :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- Sum over the edges, with the rows already scaled by `ns` and the sums scaled by `nd` afterwards. -/
def aggregateWith (ns nd : (⟨S50000, .f32⟩ : BufTy).Contents (Elt F)) (x : (⟨S50000x128, .f32⟩ : BufTy).Contents (Elt F))
    (src dst : (⟨S800000, .i32⟩ : BufTy).Contents (Elt F)) : (⟨S50000x128, .f32⟩ : BufTy).Contents (Elt F) :=
  mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 (mulf x (rowScale ns)) (wrapped src))) (rowScale nd)

/-- The normalised neighbourhood sum D_in^(-1/2) A D_out^(-1/2) x. -/
def aggregate (x : (⟨S50000x128, .f32⟩ : BufTy).Contents (Elt F)) (src dst : (⟨S800000, .i32⟩ : BufTy).Contents (Elt F)) :
    (⟨S50000x128, .f32⟩ : BufTy).Contents (Elt F) :=
  aggregateWith (degNorm src) (degNorm dst) x src dst

/-- max(a · W + b, 0) as the host computes it. -/
def denseRelu (a : (⟨S50000x128, .f32⟩ : BufTy).Contents (Elt F)) (W : (⟨S128x128, .f32⟩ : BufTy).Contents (Elt F))
    (b : (⟨S128, .f32⟩ : BufTy).Contents (Elt F)) : (⟨S50000x128, .f32⟩ : BufTy).Contents (Elt F) :=
  maximumf (addf (Host.dotGeneral dot_S50000x128_S128x128_S50000x128_1_0_0_1_n_n none a W) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- h · Wfc + bfc as the host computes it. -/
def classify (h : (⟨S50000x128, .f32⟩ : BufTy).Contents (Elt F)) (Wfc : (⟨S128x40, .f32⟩ : BufTy).Contents (Elt F))
    (bfc : (⟨S40, .f32⟩ : BufTy).Contents (Elt F)) : (⟨S50000x40, .f32⟩ : BufTy).Contents (Elt F) :=
  addf (Host.dotGeneral dot_S50000x128_S128x40_S50000x40_1_0_0_1_n_n none h Wfc) (broadcastInDim S50000x40 ![0, 1] bcast_S1x40_S50000x40_0_1 (broadcastInDim S1x40 ![1] bcast_S40_S1x40_1 bfc))

/-- The two-layer network with its classifier. -/
def net (x : (⟨S50000x128, .f32⟩ : BufTy).Contents (Elt F)) (src dst : (⟨S800000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (Wfc : (⟨S128x40, .f32⟩ : BufTy).Contents (Elt F)) (bfc : (⟨S40, .f32⟩ : BufTy).Contents (Elt F)) :
    (⟨S50000x40, .f32⟩ : BufTy).Contents (Elt F) :=
  classify (denseRelu (aggregate (denseRelu (aggregate x src dst) W1 b1) src dst) W2 b2) Wfc bfc

/-! ## The dense stages entry by entry, on the extended reals -/

/-- The real number zero as the programs write it. -/
abbrev zero32 : EReal := Ideal.ofBits .f32 0x00000000#32

/-- Entry (r, q) of max(a · W + b, 0), the bias given as a [1, 128] row. -/
def layerRows (a : Vec Ideal S50000x128 .f32) (W : Vec Ideal S128x128 .f32) (b : Vec Ideal S1x128 .f32) : Vec Ideal S50000x128 .f32 :=
  fun i => max ((∑ k : Fin 128, a (ix2 (i 0) k) * W (ix2 k (i 1))) + b (ix2 0 (i 1))) zero32

/-- Entry (r, q) of max(a · W2 + b2, 0) · Wfc + bfc, the biases given as [1, 128] and [1, 40] rows. -/
def headRows (a : Vec Ideal S50000x128 .f32) (W2 : Vec Ideal S128x128 .f32) (b2 : Vec Ideal S1x128 .f32)
    (Wfc : Vec Ideal S128x40 .f32) (bfc : Vec Ideal S1x40 .f32) : Vec Ideal S50000x40 .f32 :=
  fun i => (∑ k : Fin 128, max ((∑ k' : Fin 128, a (ix2 (i 0) k') * W2 (ix2 k' k)) + b2 (ix2 0 k)) zero32 * Wfc (ix2 k (i 1))) + bfc (ix2 0 (i 1))

end Cert.Gcn

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Dense.lean ====
/-
  The two dense stages on the extended reals, entry by entry.

  A kernel's block holds, at row p and column q, max(∑ₖ x(p, k) · W(k, q) + b(0, q), 0): the product accumulates into a
  zero block, so it is the plain sum over the 128 shared features; the changes of float format around it are the
  identity on the extended reals; the bias is a [1, 128] row spread down the 2000 rows. The second kernel multiplies
  that by the classifier's [128, 40] matrix and adds its [1, 40] bias row. The host computes the same entries with a
  whole-array product and the bias broadcast from a [128] vector: `layerRows` and `headRows` of the bias reshaped to a
  row ARE `denseRelu` and `classify ∘ denseRelu`.
-/
import proofs.«136340_j12859132084712_1_alg».proof.Proof.Spec
import proofs.«136340_j12859132084712_1_alg».proof.Proof.LibPlainDot
import proofs.«136340_j12859132084712_1_alg».proof.Proof.Gen.KernelIdeal.Skeleton
import Idealize.ShloMosaic.Lib.Pipeline.Value
import Idealize.ShloMosaic.Lib.ValueLayout
import Idealize.ShloMosaic.PureOps.Ideal.Laws

noncomputable section

namespace Cert.Gcn

open Idealize.ShloMosaic Idealize.ShloMosaic.ValueIdx

/-! ## The four products are plain row-by-column products -/

theorem plain_block128 : PlainDot.IsPlain Cert.KernelIdeal.dot_S2000x128_S128x128_S2000x128_1_0_0_1_n_n := ⟨rfl, rfl, rfl, rfl, rfl, rfl⟩
theorem plain_block40 : PlainDot.IsPlain Cert.KernelIdeal.dot_S2000x128_S128x40_S2000x40_1_0_0_1_n_n := ⟨rfl, rfl, rfl, rfl, rfl, rfl⟩
theorem plain_whole128 : PlainDot.IsPlain Cert.ReferenceIdeal.dot_S50000x128_S128x128_S50000x128_1_0_0_1_n_n := ⟨rfl, rfl, rfl, rfl, rfl, rfl⟩
theorem plain_whole40 : PlainDot.IsPlain Cert.ReferenceIdeal.dot_S50000x128_S128x40_S50000x40_1_0_0_1_n_n := ⟨rfl, rfl, rfl, rfl, rfl, rfl⟩

/-! ## What a kernel's block holds -/

/-- The first kernel's block at (p, q). -/
theorem block0_apply (x0 : Vec Ideal Cert.KernelIdeal.S2000x128 .f32) (x1 : Vec Ideal Cert.KernelIdeal.S128x128 .f32)
    (x2 : Vec Ideal Cert.KernelIdeal.S1x128 .f32) (p : Fin 2000) (q : Fin 128) :
    Cert.KernelIdeal.Gen.k0_pay1 x0 x1 x2 (ix2 p q)
      = max ((∑ k : Fin 128, x0 (ix2 p k) * x1 (ix2 k q)) + x2 (ix2 0 q)) zero32 := by
  unfold Cert.KernelIdeal.Gen.k0_pay1
  simp only [shapeCast_self]
  show max (FloatOps.matmul (F := Ideal) Cert.KernelIdeal.dot_S2000x128_S128x128_S2000x128_1_0_0_1_n_n none
      (truncf (F := Ideal) .bf16 x0 _) (truncf (F := Ideal) .bf16 x1 _)
      (constant Cert.KernelIdeal.S2000x128 .f32 0x00000000#32) (ix2 p q)
    + broadcastTo Cert.KernelIdeal.S2000x128 x2 _ (ix2 p q)) zero32 = _
  rw [PlainDot.matmul_zero_apply plain_block128, broadcastTo_1b_ab_apply]
  rfl

/-- The second kernel's block at (p, q). -/
theorem block1_apply (x0 : Vec Ideal Cert.KernelIdeal.S2000x128 .f32) (x1 : Vec Ideal Cert.KernelIdeal.S128x128 .f32)
    (x2 : Vec Ideal Cert.KernelIdeal.S1x128 .f32) (x3 : Vec Ideal Cert.KernelIdeal.S128x40 .f32)
    (x4 : Vec Ideal Cert.KernelIdeal.S1x40 .f32) (p : Fin 2000) (q : Fin 40) :
    Cert.KernelIdeal.Gen.k1_pay1 x0 x1 x2 x3 x4 (ix2 p q)
      = (∑ k : Fin 128, max ((∑ k' : Fin 128, x0 (ix2 p k') * x1 (ix2 k' k)) + x2 (ix2 0 k)) zero32 * x3 (ix2 k q))
        + x4 (ix2 0 q) := by
  unfold Cert.KernelIdeal.Gen.k1_pay1
  simp only [shapeCast_self]
  show FloatOps.matmul (F := Ideal) Cert.KernelIdeal.dot_S2000x128_S128x40_S2000x40_1_0_0_1_n_n none
      (truncf (F := Ideal) .bf16 (maximumf (addf (matmul Cert.KernelIdeal.dot_S2000x128_S128x128_S2000x128_1_0_0_1_n_n none
        (truncf (F := Ideal) .bf16 x0 _) (truncf (F := Ideal) .bf16 x1 _) (constant Cert.KernelIdeal.S2000x128 .f32 0x00000000#32))
        (broadcastTo Cert.KernelIdeal.S2000x128 x2 _)) (broadcast Cert.KernelIdeal.S2000x128 (Scalar.ofBits .f32 0x00000000#32))) _)
      (truncf (F := Ideal) .bf16 x3 _) (constant Cert.KernelIdeal.S2000x40 .f32 0x00000000#32) (ix2 p q)
    + broadcastTo Cert.KernelIdeal.S2000x40 x4 _ (ix2 p q) = _
  rw [PlainDot.matmul_zero_apply plain_block40, broadcastTo_1b_ab_apply]
  refine congrArg₂ (· + ·) (Finset.sum_congr rfl fun k _ => congrArg₂ (· * ·) ?_ rfl) rfl
  show max (FloatOps.matmul (F := Ideal) Cert.KernelIdeal.dot_S2000x128_S128x128_S2000x128_1_0_0_1_n_n none
      (truncf (F := Ideal) .bf16 x0 _) (truncf (F := Ideal) .bf16 x1 _)
      (constant Cert.KernelIdeal.S2000x128 .f32 0x00000000#32) (ix2 p k)
    + broadcastTo Cert.KernelIdeal.S2000x128 x2 _ (ix2 p k)) zero32 = _
  rw [PlainDot.matmul_zero_apply plain_block128, broadcastTo_1b_ab_apply]
  rfl

/-! ## The host's broadcasts read at an entry -/

/-- A [C] vector made a [1, C] row and spread down R rows reads, at (r, q), the vector at q. -/
theorem spreadRow_apply {R C : ℕ} {α : Type} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (r : Fin R) (q : Fin C) :
    broadcastInDim ⟨2, ![R, C]⟩ ![0, 1] h2 (broadcastInDim ⟨2, ![1, C]⟩ ![1] h1 b) (ix2 r q) = b (ix1 q) := by
  refine (broadcastInDim_apply _ h2 _ (ix2 r q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if C = 1 then 0 else q.val
      split
      · have := q.isLt; omega
      · rfl
  · match a with
    | ⟨0, _⟩ =>
      show q.val = if C = 1 then 0 else q.val
      split
      · have := q.isLt; omega
      · rfl

/-- A scalar spread over a whole array reads the scalar everywhere. -/
theorem spreadScalar_apply {s : Shape} {α : Type} (x : (⟨0, ![]⟩ : Shape).Idx → α)
    (h : (⟨0, ![]⟩ : Shape).BroadcastsInDim s ![]) (j : s.Idx) : broadcastInDim s ![] h x j = x ix0 :=
  broadcastInDim_apply _ h x j ix0 fun a => a.elim0

/-! ## The kernels' entries are the host's -/

/-- max(a · W + b, 0) with the bias reshaped to a row is the host's dense layer. -/
theorem layerRows_eq (a : Vec Ideal Cert.ReferenceIdeal.S50000x128 .f32) (W : Vec Ideal Cert.ReferenceIdeal.S128x128 .f32)
    (b : Vec Ideal Cert.ReferenceIdeal.S128 .f32) (h : Cert.ReferenceIdeal.S128.ShapeCasts Cert.ReferenceIdeal.S1x128) :
    layerRows a W (shapeCast Cert.ReferenceIdeal.S1x128 b h) = denseRelu (F := Ideal) a W b := by
  funext i
  obtain ⟨r, q, rfl⟩ : ∃ (r : Fin 50000) (q : Fin 128), i = ix2 r q := ⟨i 0, i 1, eq_ix2 i⟩
  unfold layerRows denseRelu
  simp only [Host.dotGeneral]
  show max ((∑ k : Fin 128, a (ix2 r k) * W (ix2 k q)) + shapeCast Cert.ReferenceIdeal.S1x128 b h (ix2 0 q)) zero32
    = max (FloatOps.dotGeneral (F := Ideal) Cert.ReferenceIdeal.dot_S50000x128_S128x128_S50000x128_1_0_0_1_n_n none _ a W (ix2 r q)
        + broadcastInDim Cert.ReferenceIdeal.S50000x128 ![0, 1] _ (broadcastInDim Cert.ReferenceIdeal.S1x128 ![1] _ b) (ix2 r q))
      (broadcastInDim Cert.ReferenceIdeal.S50000x128 ![] _ (constant (F := Ideal) Cert.ReferenceIdeal.S_ .f32 0x00000000#32) (ix2 r q))
  rw [PlainDot.dotGeneral_apply plain_whole128, spreadRow_apply, spreadScalar_apply, shapeCast_a_1a_apply]
  rfl

/-- max(a · W2 + b2, 0) · Wfc + bfc with the biases reshaped to rows is the host's second layer and classifier. -/
theorem headRows_eq (a : Vec Ideal Cert.ReferenceIdeal.S50000x128 .f32) (W2 : Vec Ideal Cert.ReferenceIdeal.S128x128 .f32)
    (b2 : Vec Ideal Cert.ReferenceIdeal.S128 .f32) (Wfc : Vec Ideal Cert.ReferenceIdeal.S128x40 .f32)
    (bfc : Vec Ideal Cert.ReferenceIdeal.S40 .f32)
    (h2 : Cert.ReferenceIdeal.S128.ShapeCasts Cert.ReferenceIdeal.S1x128)
    (h3 : Cert.ReferenceIdeal.S40.ShapeCasts Cert.ReferenceIdeal.S1x40) :
    headRows a W2 (shapeCast Cert.ReferenceIdeal.S1x128 b2 h2) Wfc (shapeCast Cert.ReferenceIdeal.S1x40 bfc h3)
      = classify (F := Ideal) (denseRelu (F := Ideal) a W2 b2) Wfc bfc := by
  funext i
  obtain ⟨r, q, rfl⟩ : ∃ (r : Fin 50000) (q : Fin 40), i = ix2 r q := ⟨i 0, i 1, eq_ix2 i⟩
  unfold headRows classify
  simp only [Host.dotGeneral]
  show (∑ k : Fin 128, max ((∑ k' : Fin 128, a (ix2 r k') * W2 (ix2 k' k)) + shapeCast Cert.ReferenceIdeal.S1x128 b2 h2 (ix2 0 k)) zero32 * Wfc (ix2 k q))
      + shapeCast Cert.ReferenceIdeal.S1x40 bfc h3 (ix2 0 q)
    = FloatOps.dotGeneral (F := Ideal) Cert.ReferenceIdeal.dot_S50000x128_S128x40_S50000x40_1_0_0_1_n_n none _ (denseRelu (F := Ideal) a W2 b2) Wfc (ix2 r q)
      + broadcastInDim Cert.ReferenceIdeal.S50000x40 ![0, 1] _ (broadcastInDim Cert.ReferenceIdeal.S1x40 ![1] _ bfc) (ix2 r q)
  rw [PlainDot.dotGeneral_apply plain_whole40, spreadRow_apply, shapeCast_a_1a_apply]
  refine congrArg₂ (· + ·) (Finset.sum_congr rfl fun k _ => congrArg₂ (· * ·) ?_ rfl) rfl
  exact congrFun (layerRows_eq a W2 b2 h2) (ix2 r k)

end Cert.Gcn

end
-- ==== Proof.Blocks0.lean ====
/-
  What pallas_call 0 leaves in its output array, for ANY contents `V` the region is entered from.

  The grid has 25 points; point t reads rows 2000·t … 2000·t + 1999 of the [50000, 128] input, the weight and bias
  arrays whole, and writes rows 2000·t … 2000·t + 1999 of the [50000, 128] output. So what point t writes back is block t
  of ONE function of the whole arrays, `layerRows`: entry (r, q) depends on row r of the input only. The 25 blocks tile the
  output, so the array ends at `layerRows` of the region's entry contents.
-/
import proofs.«136340_j12859132084712_1_alg».proof.Proof.Gen.KernelIdeal.Frame
import proofs.«136340_j12859132084712_1_alg».proof.Proof.Dense

set_option maxRecDepth 16384

noncomputable section

namespace Cert.KernelIdeal.Blocks0

open Cert.KernelIdeal Cert.KernelIdeal.Gen Cert.Gcn
open Idealize.ShloMosaic Idealize.ShloMosaic.TcCoe Idealize.ShloMosaic.ValueIdx Idealize.SL.Sem

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the grid: the input and output row blocks are block t; the column block is 0; the weight
    and bias windows sit at block (0, 0). -/
theorem idx_facts0 : ∀ t : Fin cfg0.N, win0_0.index t (0 : Fin 2) = t.val ∧ win0_0.index t (1 : Fin 2) = 0
    ∧ win0_3.index t (0 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

theorem point_lt (t : Fin cfg0.N) : t.val < 25 := Nat.lt_of_lt_of_eq t.isLt N_0

/-- Row p of point t's input block is row 2000·t + p of the input array. -/
theorem read0_0 (c : Dev nD) (t : Fin cfg0.N) (p : Fin 2000) (k : Fin 128) (h : t.val * 2000 + p.val < 50000) :
    iblk0 V c 0 t (ix2 p k) = (V c main_v35 : Vec Ideal S50000x128 .f32) (ix2 ⟨t.val * 2000 + p.val, h⟩ k) := by
  obtain ⟨e0, e1, -⟩ := idx_facts0 t
  show V c main_v35 (((cfg0.win 0).blk t).view.emb (ix2 p k)) = _
  refine congrArg (V c main_v35) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- Window 1 is its whole array at every point: block index (0, 0). -/
theorem read0_1 (c : Dev nD) (t : Fin cfg0.N) (y : S128x128.Idx) : iblk0 V c 1 t y = V c main_arg3 y := by
  obtain ⟨-, -, -, w1a, w1b, w2a, w2b, -⟩ := idx_facts0 t
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; rw [w1a]; omega
  | ⟨1, _⟩ => show win0_1.index t (1 : Fin 2) * 128 + 1 * (y 1).val = (y 1).val; rw [w1b]; omega

/-- Window 2 is its whole array at every point: block index (0, 0). -/
theorem read0_2 (c : Dev nD) (t : Fin cfg0.N) (y : S1x128.Idx) : iblk0 V c 2 t y = V c main_v36 y := by
  obtain ⟨-, -, -, w1a, w1b, w2a, w2b, -⟩ := idx_facts0 t
  show V c main_v36 (((cfg0.win 2).blk t).view.emb y) = V c main_v36 y
  refine congrArg (V c main_v36) (funext fun a => Fin.ext ?_)
  match a with
  | ⟨0, _⟩ => show win0_2.index t (0 : Fin 2) * 1 + 1 * (y 0).val = (y 0).val; rw [w2a]; omega
  | ⟨1, _⟩ => show win0_2.index t (1 : Fin 2) * 128 + 1 * (y 1).val = (y 1).val; rw [w2b]; omega

/-- Entry (p, q) of point t's output block sits at (2000·t + p, q) of the output array. -/
theorem emb0_out (t : Fin cfg0.N) (p : Fin 2000) (q : Fin 128) (h : t.val * 2000 + p.val < 50000) :
    ((cfg0.win 3).blk t).view.emb (ix2 p q) = (ix2 ⟨t.val * 2000 + p.val, h⟩ q : S50000x128.Idx) := by
  obtain ⟨-, -, e2, -, -, -, -, e3⟩ := idx_facts0 t
  refine funext fun a => Fin.ext ?_
  match a with
  | ⟨0, _⟩ => show win0_3.index t (0 : Fin 2) * 2000 + 1 * p.val = t.val * 2000 + p.val; rw [e2]; omega
  | ⟨1, _⟩ => show win0_3.index t (1 : Fin 2) * 128 + 1 * q.val = q.val; rw [e3]; omega

/-- WHAT POINT t WRITES BACK is block t of `layerRows` of the arrays as the region finds them. -/
theorem flushed0_eq (c : Dev nD) (t : Fin cfg0.N) :
    (dat0 V c).flushed 3 t = ((cfg0.win 3).blk t).view.read (Elt Ideal) (layerRows (V c main_v35) (V c main_arg3) (V c main_v36)) := by
  show (cfg0.win 3).cut (grid0.coords t) ((dat0 V c).after 3 t) = _
  rw [after0_3]
  unfold out0_3
  rw [View.canon_unit_zero origin2]
  simp only [View.ld_unit_zero (S := S2000x128) origin2, View.ld_unit_zero (S := S128x128) origin2, View.ld_unit_zero (S := S1x128) origin2]
  funext j
  obtain ⟨p, q, rfl⟩ : ∃ (p : Fin 2000) (q : Fin 128), j = ix2 p q := ⟨j 0, j 1, eq_ix2 j⟩
  have hr : t.val * 2000 + p.val < 50000 := by have := point_lt t; have := p.isLt; omega
  show k0_pay1 (iblk0 V c 0 t) (iblk0 V c 1 t) (iblk0 V c 2 t) (ix2 p q) = layerRows (V c main_v35) (V c main_arg3) (V c main_v36) (((cfg0.win 3).blk t).view.emb (ix2 p q))
  rw [emb0_out t p q hr]
  refine (block0_apply (iblk0 V c 0 t) (iblk0 V c 1 t) (iblk0 V c 2 t) p q).trans ?_
  simp only [read0_0 V c t _ _ hr, read0_1 V c t, read0_2 V c t]
  rfl

/-- An index of the array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v37).slice (win0_3.rect t)).set ↔ _
  rw [View.set_slice_whole, Rect.mem_set_unit]
  exact Iff.rfl

/-- Every index of the output array is in the block of the point its row falls in. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 2000 < cfg0.N := by rw [show cfg0.N = 25 from N_0]; omega
  refine ⟨⟨(i 0).val / 2000, hN⟩, flush0_3 _, ?_⟩
  obtain ⟨-, -, e2, -, -, -, -, e3⟩ := idx_facts0 ⟨(i 0).val / 2000, hN⟩
  rw [mem_blk0]
  intro a
  match a with
  | ⟨0, _⟩ => show win0_3.index _ (0 : Fin 2) * 2000 ≤ (i 0).val ∧ (i 0).val < win0_3.index _ (0 : Fin 2) * 2000 + 2000; rw [e2]; show (i 0).val / 2000 * 2000 ≤ _ ∧ _ < (i 0).val / 2000 * 2000 + 2000; omega
  | ⟨1, _⟩ => show win0_3.index _ (1 : Fin 2) * 128 ≤ (i 1).val ∧ (i 1).val < win0_3.index _ (1 : Fin 2) * 128 + 128; rw [e3]; omega

/-- THE ARRAY after the region: `layerRows` of the entry contents. -/
theorem final0 (c : Dev nD) : (dat0 V c).arrAt 3 cfg0.N = layerRows (V c main_v35) (V c main_arg3) (V c main_v36) :=
  (dat0 V c).arrAt_eq_of_cover 3 (layerRows (V c main_v35) (V c main_arg3) (V c main_v36)) (fun t _ => flushed0_eq V c t) (cover0)

end Cert.KernelIdeal.Blocks0

end
-- ==== Proof.Blocks1.lean ====
/-
  What pallas_call 1 leaves in its output array, for ANY contents `V` the region is entered from.

  The grid has 25 points; point t reads rows 2000·t … 2000·t + 1999 of the [50000, 128] input, the weight and bias
  arrays whole, and writes rows 2000·t … 2000·t + 1999 of the [50000, 40] output. So what point t writes back is block t
  of ONE function of the whole arrays, `headRows`: entry (r, q) depends on row r of the input only. The 25 blocks tile the
  output, so the array ends at `headRows` of the region's entry contents.
-/
import proofs.«136340_j12859132084712_1_alg».proof.Proof.Gen.KernelIdeal.Frame
import proofs.«136340_j12859132084712_1_alg».proof.Proof.Dense

set_option maxRecDepth 16384

noncomputable section

namespace Cert.KernelIdeal.Blocks1

open Cert.KernelIdeal Cert.KernelIdeal.Gen Cert.Gcn
open Idealize.ShloMosaic Idealize.ShloMosaic.TcCoe Idealize.ShloMosaic.ValueIdx Idealize.SL.Sem

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the grid: the input and output row blocks are block t; the column block is 0; the weight
    and bias windows sit at block (0, 0). -/
theorem idx_facts1 : ∀ t : Fin cfg1.N, win1_0.index t (0 : Fin 2) = t.val ∧ win1_0.index t (1 : Fin 2) = 0
    ∧ win1_5.index t (0 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

theorem point_lt (t : Fin cfg1.N) : t.val < 25 := Nat.lt_of_lt_of_eq t.isLt N_1

/-- Row p of point t's input block is row 2000·t + p of the input array. -/
theorem read1_0 (c : Dev nD) (t : Fin cfg1.N) (p : Fin 2000) (k : Fin 128) (h : t.val * 2000 + p.val < 50000) :
    iblk1 V c 0 t (ix2 p k) = (V c main_v53 : Vec Ideal S50000x128 .f32) (ix2 ⟨t.val * 2000 + p.val, h⟩ k) := by
  obtain ⟨e0, e1, -⟩ := idx_facts1 t
  show V c main_v53 (((cfg1.win 0).blk t).view.emb (ix2 p k)) = _
  refine congrArg (V c main_v53) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- Window 1 is its whole array at every point: block index (0, 0). -/
theorem read1_1 (c : Dev nD) (t : Fin cfg1.N) (y : S128x128.Idx) : iblk1 V c 1 t y = V c main_arg5 y := by
  obtain ⟨-, -, -, w1a, w1b, w2a, w2b, w3a, w3b, w4a, w4b, -⟩ := idx_facts1 t
  show V c main_arg5 (((cfg1.win 1).blk t).view.emb y) = V c main_arg5 y
  refine congrArg (V c main_arg5) (funext fun a => Fin.ext ?_)
  match a with
  | ⟨0, _⟩ => show win1_1.index t (0 : Fin 2) * 128 + 1 * (y 0).val = (y 0).val; rw [w1a]; omega
  | ⟨1, _⟩ => show win1_1.index t (1 : Fin 2) * 128 + 1 * (y 1).val = (y 1).val; rw [w1b]; omega

/-- Window 2 is its whole array at every point: block index (0, 0). -/
theorem read1_2 (c : Dev nD) (t : Fin cfg1.N) (y : S1x128.Idx) : iblk1 V c 2 t y = V c main_v54 y := by
  obtain ⟨-, -, -, w1a, w1b, w2a, w2b, w3a, w3b, w4a, w4b, -⟩ := idx_facts1 t
  show V c main_v54 (((cfg1.win 2).blk t).view.emb y) = V c main_v54 y
  refine congrArg (V c main_v54) (funext fun a => Fin.ext ?_)
  match a with
  | ⟨0, _⟩ => show win1_2.index t (0 : Fin 2) * 1 + 1 * (y 0).val = (y 0).val; rw [w2a]; omega
  | ⟨1, _⟩ => show win1_2.index t (1 : Fin 2) * 128 + 1 * (y 1).val = (y 1).val; rw [w2b]; omega

/-- Window 3 is its whole array at every point: block index (0, 0). -/
theorem read1_3 (c : Dev nD) (t : Fin cfg1.N) (y : S128x40.Idx) : iblk1 V c 3 t y = V c main_arg7 y := by
  obtain ⟨-, -, -, w1a, w1b, w2a, w2b, w3a, w3b, w4a, w4b, -⟩ := idx_facts1 t
  show V c main_arg7 (((cfg1.win 3).blk t).view.emb y) = V c main_arg7 y
  refine congrArg (V c main_arg7) (funext fun a => Fin.ext ?_)
  match a with
  | ⟨0, _⟩ => show win1_3.index t (0 : Fin 2) * 128 + 1 * (y 0).val = (y 0).val; rw [w3a]; omega
  | ⟨1, _⟩ => show win1_3.index t (1 : Fin 2) * 40 + 1 * (y 1).val = (y 1).val; rw [w3b]; omega

/-- Window 4 is its whole array at every point: block index (0, 0). -/
theorem read1_4 (c : Dev nD) (t : Fin cfg1.N) (y : S1x40.Idx) : iblk1 V c 4 t y = V c main_v55 y := by
  obtain ⟨-, -, -, w1a, w1b, w2a, w2b, w3a, w3b, w4a, w4b, -⟩ := idx_facts1 t
  show V c main_v55 (((cfg1.win 4).blk t).view.emb y) = V c main_v55 y
  refine congrArg (V c main_v55) (funext fun a => Fin.ext ?_)
  match a with
  | ⟨0, _⟩ => show win1_4.index t (0 : Fin 2) * 1 + 1 * (y 0).val = (y 0).val; rw [w4a]; omega
  | ⟨1, _⟩ => show win1_4.index t (1 : Fin 2) * 40 + 1 * (y 1).val = (y 1).val; rw [w4b]; omega

/-- Entry (p, q) of point t's output block sits at (2000·t + p, q) of the output array. -/
theorem emb1_out (t : Fin cfg1.N) (p : Fin 2000) (q : Fin 40) (h : t.val * 2000 + p.val < 50000) :
    ((cfg1.win 5).blk t).view.emb (ix2 p q) = (ix2 ⟨t.val * 2000 + p.val, h⟩ q : S50000x40.Idx) := by
  obtain ⟨-, -, e2, -, -, -, -, -, -, -, -, e3⟩ := idx_facts1 t
  refine funext fun a => Fin.ext ?_
  match a with
  | ⟨0, _⟩ => show win1_5.index t (0 : Fin 2) * 2000 + 1 * p.val = t.val * 2000 + p.val; rw [e2]; omega
  | ⟨1, _⟩ => show win1_5.index t (1 : Fin 2) * 40 + 1 * q.val = q.val; rw [e3]; omega

/-- WHAT POINT t WRITES BACK is block t of `headRows` of the arrays as the region finds them. -/
theorem flushed1_eq (c : Dev nD) (t : Fin cfg1.N) :
    (dat1 V c).flushed 5 t = ((cfg1.win 5).blk t).view.read (Elt Ideal) (headRows (V c main_v53) (V c main_arg5) (V c main_v54) (V c main_arg7) (V c main_v55)) := by
  show (cfg1.win 5).cut (grid1.coords t) ((dat1 V c).after 5 t) = _
  rw [after1_5]
  unfold out1_5
  rw [View.canon_unit_zero origin2]
  simp only [View.ld_unit_zero (S := S2000x128) origin2, View.ld_unit_zero (S := S128x128) origin2, View.ld_unit_zero (S := S1x128) origin2, View.ld_unit_zero (S := S128x40) origin2, View.ld_unit_zero (S := S1x40) origin2]
  funext j
  obtain ⟨p, q, rfl⟩ : ∃ (p : Fin 2000) (q : Fin 40), j = ix2 p q := ⟨j 0, j 1, eq_ix2 j⟩
  have hr : t.val * 2000 + p.val < 50000 := by have := point_lt t; have := p.isLt; omega
  show k1_pay1 (iblk1 V c 0 t) (iblk1 V c 1 t) (iblk1 V c 2 t) (iblk1 V c 3 t) (iblk1 V c 4 t) (ix2 p q) = headRows (V c main_v53) (V c main_arg5) (V c main_v54) (V c main_arg7) (V c main_v55) (((cfg1.win 5).blk t).view.emb (ix2 p q))
  rw [emb1_out t p q hr]
  refine (block1_apply (iblk1 V c 0 t) (iblk1 V c 1 t) (iblk1 V c 2 t) (iblk1 V c 3 t) (iblk1 V c 4 t) p q).trans ?_
  simp only [read1_0 V c t _ _ hr, read1_1 V c t, read1_2 V c t, read1_3 V c t, read1_4 V c t]
  rfl

/-- An index of the array is in point t's block iff each coordinate is in the block's range on its axis. -/
theorem mem_blk1 (t : Fin cfg1.N) (i : S50000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v56).slice (win1_5.rect t)).set ↔ _
  rw [View.set_slice_whole, Rect.mem_set_unit]
  exact Iff.rfl

/-- Every index of the output array is in the block of the point its row falls in. -/
theorem cover1 (i : S50000x40.Idx) : ∃ t : Fin cfg1.N, (cfg1.win 5).flush t = true ∧ i ∈ ((cfg1.win 5).blk t).view.set := by
  have hi0 : (i 0).val < 50000 := (i 0).isLt
  have hi1 : (i 1).val < 40 := (i 1).isLt
  have hN : (i 0).val / 2000 < cfg1.N := by rw [show cfg1.N = 25 from N_1]; omega
  refine ⟨⟨(i 0).val / 2000, hN⟩, flush1_5 _, ?_⟩
  obtain ⟨-, -, e2, -, -, -, -, -, -, -, -, e3⟩ := idx_facts1 ⟨(i 0).val / 2000, hN⟩
  rw [mem_blk1]
  intro a
  match a with
  | ⟨0, _⟩ => show win1_5.index _ (0 : Fin 2) * 2000 ≤ (i 0).val ∧ (i 0).val < win1_5.index _ (0 : Fin 2) * 2000 + 2000; rw [e2]; show (i 0).val / 2000 * 2000 ≤ _ ∧ _ < (i 0).val / 2000 * 2000 + 2000; omega
  | ⟨1, _⟩ => show win1_5.index _ (1 : Fin 2) * 40 ≤ (i 1).val ∧ (i 1).val < win1_5.index _ (1 : Fin 2) * 40 + 40; rw [e3]; omega

/-- THE ARRAY after the region: `headRows` of the entry contents. -/
theorem final1 (c : Dev nD) : (dat1 V c).arrAt 5 cfg1.N = headRows (V c main_v53) (V c main_arg5) (V c main_v54) (V c main_arg7) (V c main_v55) :=
  (dat1 V c).arrAt_eq_of_cover 5 (headRows (V c main_v53) (V c main_arg5) (V c main_v54) (V c main_arg7) (V c main_v55)) (fun t _ => flushed1_eq V c t) (cover1)

end Cert.KernelIdeal.Blocks1

end
-- ==== Proof.Chain.lean ====
/-
  The idealized kernel program's result buffer, read back to the arguments.

  @main is: the two degree normalisations (four stretches of host operations), the first aggregation and the first
  bias reshaped to a row (a fifth stretch), the first pallas_call, the second aggregation and the two remaining biases
  reshaped (a sixth stretch), the second pallas_call. The buffer contents at each boundary are a fold from the launch
  memory; here each value the next step reads is named at each boundary: a stretch's results by running the
  stretch's operations on the contents before it, a buffer no operation of a stretch writes by walking past the
  stretch, a pallas_call's output by the block lemmas, everything else a pallas_call leaves as it found it. At the
  end the result buffer holds the network `net` of the nine arguments.
-/
import proofs.«136340_j12859132084712_1_alg».proof.Proof.Gen.KernelIdeal.Frame
import proofs.«136340_j12859132084712_1_alg».proof.Proof.Blocks0
import proofs.«136340_j12859132084712_1_alg».proof.Proof.Blocks1

set_option maxRecDepth 16384

noncomputable section

namespace Cert.KernelIdeal.Chain

open Cert.KernelIdeal Cert.KernelIdeal.Gen Cert.Gcn
open Idealize.ShloMosaic Idealize.ShloMosaic.TcCoe Idealize.SL.Sem Idealize.ShloMosaic.StableHlo

/-- A buffer that no operation of a stretch writes holds after the stretch what it held before. -/
local macro "unwritten" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Each stretch of host operations, from ANY contents `X` before it, at any float family -/

section Stretches

variable {F : FTy → Type} [FloatOps F] (X : Valuation τ sig (Elt F))

/-- The first two stretches compute the normalisation by source degree. -/
theorem normSrc : StableHlo.after (hostOps0_1 (F := F)) (StableHlo.after (hostOps0 (F := F)) X) (Proc.devRef .tc main_v9)
    = degNorm (X (Proc.devRef .tc main_arg1)) := by
  delta hostOps0 hostOps0_1
  after_results
  rfl

/-- The next two compute the normalisation by destination degree. -/
theorem normDst : StableHlo.after (hostOps0_3 (F := F)) (StableHlo.after (hostOps0_2 (F := F)) X) (Proc.devRef .tc main_v19)
    = degNorm (X (Proc.devRef .tc main_arg2)) := by
  delta hostOps0_2 hostOps0_3
  after_results
  rfl

/-- The fifth stretch aggregates the features with the two normalisations it finds. -/
theorem agg1 : StableHlo.after (hostOps0_4 (F := F)) X (Proc.devRef .tc main_v35)
    = aggregateWith (X (Proc.devRef .tc main_v9)) (X (Proc.devRef .tc main_v19)) (X (Proc.devRef .tc main_arg0)) (X (Proc.devRef .tc main_arg1)) (X (Proc.devRef .tc main_arg2)) := by
  delta hostOps0_4
  after_results_simp
  rfl

/-- … and reshapes the first bias to a row. -/
theorem bias1 : StableHlo.after (hostOps0_4 (F := F)) X (Proc.devRef .tc main_v36)
    = shapeCast S1x128 (X (Proc.devRef .tc main_arg4)) shapeCasts_S128_S1x128 := by
  delta hostOps0_4
  after_results_simp
  rfl

/-- The stretch between the two pallas_calls aggregates the first layer's output. -/
theorem agg2 : StableHlo.after (hostOps1 (F := F)) X (Proc.devRef .tc main_v53)
    = aggregateWith (X (Proc.devRef .tc main_v9)) (X (Proc.devRef .tc main_v19)) (X (Proc.devRef .tc main_v37)) (X (Proc.devRef .tc main_arg1)) (X (Proc.devRef .tc main_arg2)) := by
  delta hostOps1
  after_results_simp
  rfl

/-- … and reshapes the second layer's and the classifier's biases to rows. -/
theorem bias2 : StableHlo.after (hostOps1 (F := F)) X (Proc.devRef .tc main_v54)
    = shapeCast S1x128 (X (Proc.devRef .tc main_arg6)) shapeCasts_S128_S1x128 := by
  delta hostOps1
  after_results_simp
  rfl

theorem bias3 : StableHlo.after (hostOps1 (F := F)) X (Proc.devRef .tc main_v55)
    = shapeCast S1x40 (X (Proc.devRef .tc main_arg8)) shapeCasts_S40_S1x40 := by
  delta hostOps1
  after_results_simp
  rfl

end Stretches

/-! ## The boundaries' contents on the extended reals -/

variable (m : (ℓ : Loc nD τ sig) → Buf (Elt Ideal) ℓ) (ρ : Dev nD → PrngReg) (c : Dev nD)

/-! ### After the first two stretches -/
theorem W2_main_arg0 : W2 m ρ c (Proc.devRef .tc main_arg0) = m ((c : Thread nD τ).loc main_arg0) :=
  (show W2 m ρ c (Proc.devRef .tc main_arg0) = W1 m ρ c (Proc.devRef .tc main_arg0) from by unwritten hostOps0_1).trans
    (show W1 m ρ c (Proc.devRef .tc main_arg0) = W0 m ρ c (Proc.devRef .tc main_arg0) from by unwritten hostOps0)
theorem W2_main_arg1 : W2 m ρ c (Proc.devRef .tc main_arg1) = m ((c : Thread nD τ).loc main_arg1) :=
  (show W2 m ρ c (Proc.devRef .tc main_arg1) = W1 m ρ c (Proc.devRef .tc main_arg1) from by unwritten hostOps0_1).trans
    (show W1 m ρ c (Proc.devRef .tc main_arg1) = W0 m ρ c (Proc.devRef .tc main_arg1) from by unwritten hostOps0)
theorem W2_main_arg2 : W2 m ρ c (Proc.devRef .tc main_arg2) = m ((c : Thread nD τ).loc main_arg2) :=
  (show W2 m ρ c (Proc.devRef .tc main_arg2) = W1 m ρ c (Proc.devRef .tc main_arg2) from by unwritten hostOps0_1).trans
    (show W1 m ρ c (Proc.devRef .tc main_arg2) = W0 m ρ c (Proc.devRef .tc main_arg2) from by unwritten hostOps0)
theorem W2_main_arg3 : W2 m ρ c (Proc.devRef .tc main_arg3) = m ((c : Thread nD τ).loc main_arg3) :=
  (show W2 m ρ c (Proc.devRef .tc main_arg3) = W1 m ρ c (Proc.devRef .tc main_arg3) from by unwritten hostOps0_1).trans
    (show W1 m ρ c (Proc.devRef .tc main_arg3) = W0 m ρ c (Proc.devRef .tc main_arg3) from by unwritten hostOps0)
theorem W2_main_arg4 : W2 m ρ c (Proc.devRef .tc main_arg4) = m ((c : Thread nD τ).loc main_arg4) :=
  (show W2 m ρ c (Proc.devRef .tc main_arg4) = W1 m ρ c (Proc.devRef .tc main_arg4) from by unwritten hostOps0_1).trans
    (show W1 m ρ c (Proc.devRef .tc main_arg4) = W0 m ρ c (Proc.devRef .tc main_arg4) from by unwritten hostOps0)
theorem W2_main_arg5 : W2 m ρ c (Proc.devRef .tc main_arg5) = m ((c : Thread nD τ).loc main_arg5) :=
  (show W2 m ρ c (Proc.devRef .tc main_arg5) = W1 m ρ c (Proc.devRef .tc main_arg5) from by unwritten hostOps0_1).trans
    (show W1 m ρ c (Proc.devRef .tc main_arg5) = W0 m ρ c (Proc.devRef .tc main_arg5) from by unwritten hostOps0)
theorem W2_main_arg6 : W2 m ρ c (Proc.devRef .tc main_arg6) = m ((c : Thread nD τ).loc main_arg6) :=
  (show W2 m ρ c (Proc.devRef .tc main_arg6) = W1 m ρ c (Proc.devRef .tc main_arg6) from by unwritten hostOps0_1).trans
    (show W1 m ρ c (Proc.devRef .tc main_arg6) = W0 m ρ c (Proc.devRef .tc main_arg6) from by unwritten hostOps0)
theorem W2_main_arg7 : W2 m ρ c (Proc.devRef .tc main_arg7) = m ((c : Thread nD τ).loc main_arg7) :=
  (show W2 m ρ c (Proc.devRef .tc main_arg7) = W1 m ρ c (Proc.devRef .tc main_arg7) from by unwritten hostOps0_1).trans
    (show W1 m ρ c (Proc.devRef .tc main_arg7) = W0 m ρ c (Proc.devRef .tc main_arg7) from by unwritten hostOps0)
theorem W2_main_arg8 : W2 m ρ c (Proc.devRef .tc main_arg8) = m ((c : Thread nD τ).loc main_arg8) :=
  (show W2 m ρ c (Proc.devRef .tc main_arg8) = W1 m ρ c (Proc.devRef .tc main_arg8) from by unwritten hostOps0_1).trans
    (show W1 m ρ c (Proc.devRef .tc main_arg8) = W0 m ρ c (Proc.devRef .tc main_arg8) from by unwritten hostOps0)
theorem W2_v9 : W2 m ρ c (Proc.devRef .tc main_v9) = degNorm (m ((c : Thread nD τ).loc main_arg1)) := normSrc (W0 m ρ c)

/-! ### After the next two -/
theorem W4_main_arg0 : W4 m ρ c (Proc.devRef .tc main_arg0) = m ((c : Thread nD τ).loc main_arg0) :=
  ((show W4 m ρ c (Proc.devRef .tc main_arg0) = W3 m ρ c (Proc.devRef .tc main_arg0) from by unwritten hostOps0_3).trans
    (show W3 m ρ c (Proc.devRef .tc main_arg0) = W2 m ρ c (Proc.devRef .tc main_arg0) from by unwritten hostOps0_2)).trans (W2_main_arg0 m ρ c)
theorem W4_main_arg1 : W4 m ρ c (Proc.devRef .tc main_arg1) = m ((c : Thread nD τ).loc main_arg1) :=
  ((show W4 m ρ c (Proc.devRef .tc main_arg1) = W3 m ρ c (Proc.devRef .tc main_arg1) from by unwritten hostOps0_3).trans
    (show W3 m ρ c (Proc.devRef .tc main_arg1) = W2 m ρ c (Proc.devRef .tc main_arg1) from by unwritten hostOps0_2)).trans (W2_main_arg1 m ρ c)
theorem W4_main_arg2 : W4 m ρ c (Proc.devRef .tc main_arg2) = m ((c : Thread nD τ).loc main_arg2) :=
  ((show W4 m ρ c (Proc.devRef .tc main_arg2) = W3 m ρ c (Proc.devRef .tc main_arg2) from by unwritten hostOps0_3).trans
    (show W3 m ρ c (Proc.devRef .tc main_arg2) = W2 m ρ c (Proc.devRef .tc main_arg2) from by unwritten hostOps0_2)).trans (W2_main_arg2 m ρ c)
theorem W4_main_arg3 : W4 m ρ c (Proc.devRef .tc main_arg3) = m ((c : Thread nD τ).loc main_arg3) :=
  ((show W4 m ρ c (Proc.devRef .tc main_arg3) = W3 m ρ c (Proc.devRef .tc main_arg3) from by unwritten hostOps0_3).trans
    (show W3 m ρ c (Proc.devRef .tc main_arg3) = W2 m ρ c (Proc.devRef .tc main_arg3) from by unwritten hostOps0_2)).trans (W2_main_arg3 m ρ c)
theorem W4_main_arg4 : W4 m ρ c (Proc.devRef .tc main_arg4) = m ((c : Thread nD τ).loc main_arg4) :=
  ((show W4 m ρ c (Proc.devRef .tc main_arg4) = W3 m ρ c (Proc.devRef .tc main_arg4) from by unwritten hostOps0_3).trans
    (show W3 m ρ c (Proc.devRef .tc main_arg4) = W2 m ρ c (Proc.devRef .tc main_arg4) from by unwritten hostOps0_2)).trans (W2_main_arg4 m ρ c)
theorem W4_main_arg5 : W4 m ρ c (Proc.devRef .tc main_arg5) = m ((c : Thread nD τ).loc main_arg5) :=
  ((show W4 m ρ c (Proc.devRef .tc main_arg5) = W3 m ρ c (Proc.devRef .tc main_arg5) from by unwritten hostOps0_3).trans
    (show W3 m ρ c (Proc.devRef .tc main_arg5) = W2 m ρ c (Proc.devRef .tc main_arg5) from by unwritten hostOps0_2)).trans (W2_main_arg5 m ρ c)
theorem W4_main_arg6 : W4 m ρ c (Proc.devRef .tc main_arg6) = m ((c : Thread nD τ).loc main_arg6) :=
  ((show W4 m ρ c (Proc.devRef .tc main_arg6) = W3 m ρ c (Proc.devRef .tc main_arg6) from by unwritten hostOps0_3).trans
    (show W3 m ρ c (Proc.devRef .tc main_arg6) = W2 m ρ c (Proc.devRef .tc main_arg6) from by unwritten hostOps0_2)).trans (W2_main_arg6 m ρ c)
theorem W4_main_arg7 : W4 m ρ c (Proc.devRef .tc main_arg7) = m ((c : Thread nD τ).loc main_arg7) :=
  ((show W4 m ρ c (Proc.devRef .tc main_arg7) = W3 m ρ c (Proc.devRef .tc main_arg7) from by unwritten hostOps0_3).trans
    (show W3 m ρ c (Proc.devRef .tc main_arg7) = W2 m ρ c (Proc.devRef .tc main_arg7) from by unwritten hostOps0_2)).trans (W2_main_arg7 m ρ c)
theorem W4_main_arg8 : W4 m ρ c (Proc.devRef .tc main_arg8) = m ((c : Thread nD τ).loc main_arg8) :=
  ((show W4 m ρ c (Proc.devRef .tc main_arg8) = W3 m ρ c (Proc.devRef .tc main_arg8) from by unwritten hostOps0_3).trans
    (show W3 m ρ c (Proc.devRef .tc main_arg8) = W2 m ρ c (Proc.devRef .tc main_arg8) from by unwritten hostOps0_2)).trans (W2_main_arg8 m ρ c)
theorem W4_v9 : W4 m ρ c (Proc.devRef .tc main_v9) = degNorm (m ((c : Thread nD τ).loc main_arg1)) :=
  ((show W4 m ρ c (Proc.devRef .tc main_v9) = W3 m ρ c (Proc.devRef .tc main_v9) from by unwritten hostOps0_3).trans
    (show W3 m ρ c (Proc.devRef .tc main_v9) = W2 m ρ c (Proc.devRef .tc main_v9) from by unwritten hostOps0_2)).trans (W2_v9 m ρ c)
theorem W4_v19 : W4 m ρ c (Proc.devRef .tc main_v19) = degNorm (m ((c : Thread nD τ).loc main_arg2)) :=
  (normDst (W2 m ρ c)).trans (congrArg degNorm (W2_main_arg2 m ρ c))

/-! ### At the first pallas_call's entry -/
theorem W5_main_arg1 : W5 m ρ c (Proc.devRef .tc main_arg1) = m ((c : Thread nD τ).loc main_arg1) :=
  (show W5 m ρ c (Proc.devRef .tc main_arg1) = W4 m ρ c (Proc.devRef .tc main_arg1) from by unwritten hostOps0_4).trans (W4_main_arg1 m ρ c)
theorem W5_main_arg2 : W5 m ρ c (Proc.devRef .tc main_arg2) = m ((c : Thread nD τ).loc main_arg2) :=
  (show W5 m ρ c (Proc.devRef .tc main_arg2) = W4 m ρ c (Proc.devRef .tc main_arg2) from by unwritten hostOps0_4).trans (W4_main_arg2 m ρ c)
theorem W5_main_arg3 : W5 m ρ c (Proc.devRef .tc main_arg3) = m ((c : Thread nD τ).loc main_arg3) :=
  (show W5 m ρ c (Proc.devRef .tc main_arg3) = W4 m ρ c (Proc.devRef .tc main_arg3) from by unwritten hostOps0_4).trans (W4_main_arg3 m ρ c)
theorem W5_main_arg5 : W5 m ρ c (Proc.devRef .tc main_arg5) = m ((c : Thread nD τ).loc main_arg5) :=
  (show W5 m ρ c (Proc.devRef .tc main_arg5) = W4 m ρ c (Proc.devRef .tc main_arg5) from by unwritten hostOps0_4).trans (W4_main_arg5 m ρ c)
theorem W5_main_arg6 : W5 m ρ c (Proc.devRef .tc main_arg6) = m ((c : Thread nD τ).loc main_arg6) :=
  (show W5 m ρ c (Proc.devRef .tc main_arg6) = W4 m ρ c (Proc.devRef .tc main_arg6) from by unwritten hostOps0_4).trans (W4_main_arg6 m ρ c)
theorem W5_main_arg7 : W5 m ρ c (Proc.devRef .tc main_arg7) = m ((c : Thread nD τ).loc main_arg7) :=
  (show W5 m ρ c (Proc.devRef .tc main_arg7) = W4 m ρ c (Proc.devRef .tc main_arg7) from by unwritten hostOps0_4).trans (W4_main_arg7 m ρ c)
theorem W5_main_arg8 : W5 m ρ c (Proc.devRef .tc main_arg8) = m ((c : Thread nD τ).loc main_arg8) :=
  (show W5 m ρ c (Proc.devRef .tc main_arg8) = W4 m ρ c (Proc.devRef .tc main_arg8) from by unwritten hostOps0_4).trans (W4_main_arg8 m ρ c)
theorem W5_v9 : W5 m ρ c (Proc.devRef .tc main_v9) = degNorm (m ((c : Thread nD τ).loc main_arg1)) :=
  (show W5 m ρ c (Proc.devRef .tc main_v9) = W4 m ρ c (Proc.devRef .tc main_v9) from by unwritten hostOps0_4).trans (W4_v9 m ρ c)
theorem W5_v19 : W5 m ρ c (Proc.devRef .tc main_v19) = degNorm (m ((c : Thread nD τ).loc main_arg2)) :=
  (show W5 m ρ c (Proc.devRef .tc main_v19) = W4 m ρ c (Proc.devRef .tc main_v19) from by unwritten hostOps0_4).trans (W4_v19 m ρ c)

/-- The first aggregation of the arguments. -/
theorem W5_v35 : W5 m ρ c (Proc.devRef .tc main_v35) = aggregate (m ((c : Thread nD τ).loc main_arg0)) (m ((c : Thread nD τ).loc main_arg1)) (m ((c : Thread nD τ).loc main_arg2)) := by
  refine (agg1 (W4 m ρ c)).trans ?_
  rw [W4_v9, W4_v19, W4_main_arg0, W4_main_arg1, W4_main_arg2]
  rfl

theorem W5_v36 : W5 m ρ c (Proc.devRef .tc main_v36) = shapeCast S1x128 (m ((c : Thread nD τ).loc main_arg4)) shapeCasts_S128_S1x128 := by
  refine (bias1 (W4 m ρ c)).trans ?_
  rw [W4_main_arg4]

/-! ### At the first pallas_call's exit -/
theorem W6_main_arg1 : W6 m ρ c (Proc.devRef .tc main_arg1) = m ((c : Thread nD τ).loc main_arg1) :=
  (W6_of_ne m ρ c main_arg1 (by decide)).trans (W5_main_arg1 m ρ c)
theorem W6_main_arg2 : W6 m ρ c (Proc.devRef .tc main_arg2) = m ((c : Thread nD τ).loc main_arg2) :=
  (W6_of_ne m ρ c main_arg2 (by decide)).trans (W5_main_arg2 m ρ c)
theorem W6_main_arg5 : W6 m ρ c (Proc.devRef .tc main_arg5) = m ((c : Thread nD τ).loc main_arg5) :=
  (W6_of_ne m ρ c main_arg5 (by decide)).trans (W5_main_arg5 m ρ c)
theorem W6_main_arg6 : W6 m ρ c (Proc.devRef .tc main_arg6) = m ((c : Thread nD τ).loc main_arg6) :=
  (W6_of_ne m ρ c main_arg6 (by decide)).trans (W5_main_arg6 m ρ c)
theorem W6_main_arg7 : W6 m ρ c (Proc.devRef .tc main_arg7) = m ((c : Thread nD τ).loc main_arg7) :=
  (W6_of_ne m ρ c main_arg7 (by decide)).trans (W5_main_arg7 m ρ c)
theorem W6_main_arg8 : W6 m ρ c (Proc.devRef .tc main_arg8) = m ((c : Thread nD τ).loc main_arg8) :=
  (W6_of_ne m ρ c main_arg8 (by decide)).trans (W5_main_arg8 m ρ c)
theorem W6_v9 : W6 m ρ c (Proc.devRef .tc main_v9) = degNorm (m ((c : Thread nD τ).loc main_arg1)) :=
  (W6_of_ne m ρ c main_v9 (by decide)).trans (W5_v9 m ρ c)
theorem W6_v19 : W6 m ρ c (Proc.devRef .tc main_v19) = degNorm (m ((c : Thread nD τ).loc main_arg2)) :=
  (W6_of_ne m ρ c main_v19 (by decide)).trans (W5_v19 m ρ c)

/-- The first layer's output: the host's dense layer of the first aggregation. -/
theorem W6_v37 : W6 m ρ c (Proc.devRef .tc main_v37)
    = denseRelu (F := Ideal) (aggregate (m ((c : Thread nD τ).loc main_arg0)) (m ((c : Thread nD τ).loc main_arg1)) (m ((c : Thread nD τ).loc main_arg2))) (m ((c : Thread nD τ).loc main_arg3)) (m ((c : Thread nD τ).loc main_arg4)) := by
  refine (W6_arr m ρ c 3).trans ?_
  rw [Blocks0.final0 (V5 m ρ) c]
  show layerRows (W5 m ρ c (Proc.devRef .tc main_v35)) (W5 m ρ c (Proc.devRef .tc main_arg3)) (W5 m ρ c (Proc.devRef .tc main_v36)) = _
  rw [W5_v35, W5_main_arg3, W5_v36]
  exact layerRows_eq _ _ _ _

/-! ### At the second pallas_call's entry -/

theorem W7_main_arg5 : W7 m ρ c (Proc.devRef .tc main_arg5) = m ((c : Thread nD τ).loc main_arg5) :=
  (show W7 m ρ c (Proc.devRef .tc main_arg5) = W6 m ρ c (Proc.devRef .tc main_arg5) from by unwritten hostOps1).trans (W6_main_arg5 m ρ c)
theorem W7_main_arg7 : W7 m ρ c (Proc.devRef .tc main_arg7) = m ((c : Thread nD τ).loc main_arg7) :=
  (show W7 m ρ c (Proc.devRef .tc main_arg7) = W6 m ρ c (Proc.devRef .tc main_arg7) from by unwritten hostOps1).trans (W6_main_arg7 m ρ c)

/-- The second aggregation, of the first layer's output. -/
theorem W7_v53 : W7 m ρ c (Proc.devRef .tc main_v53)
    = aggregate (denseRelu (F := Ideal) (aggregate (m ((c : Thread nD τ).loc main_arg0)) (m ((c : Thread nD τ).loc main_arg1)) (m ((c : Thread nD τ).loc main_arg2))) (m ((c : Thread nD τ).loc main_arg3)) (m ((c : Thread nD τ).loc main_arg4)))
        (m ((c : Thread nD τ).loc main_arg1)) (m ((c : Thread nD τ).loc main_arg2)) := by
  refine (agg2 (W6 m ρ c)).trans ?_
  rw [W6_v9, W6_v19, W6_v37, W6_main_arg1, W6_main_arg2]
  rfl

theorem W7_v54 : W7 m ρ c (Proc.devRef .tc main_v54) = shapeCast S1x128 (m ((c : Thread nD τ).loc main_arg6)) shapeCasts_S128_S1x128 := by
  refine (bias2 (W6 m ρ c)).trans ?_
  rw [W6_main_arg6]

theorem W7_v55 : W7 m ρ c (Proc.devRef .tc main_v55) = shapeCast S1x40 (m ((c : Thread nD τ).loc main_arg8)) shapeCasts_S40_S1x40 := by
  refine (bias3 (W6 m ρ c)).trans ?_
  rw [W6_main_arg8]

/-! ## The result -/

/-- After the second pallas_call the result buffer holds the network of the arguments. -/
theorem result_eq : W8 m ρ c (Proc.devRef .tc main_v56)
    = net (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) := by
  refine (W8_arr m ρ c 5).trans ?_
  rw [Blocks1.final1 (V7 m ρ) c]
  show headRows (W7 m ρ c (Proc.devRef .tc main_v53)) (W7 m ρ c (Proc.devRef .tc main_arg5)) (W7 m ρ c (Proc.devRef .tc main_v54)) (W7 m ρ c (Proc.devRef .tc main_arg7)) (W7 m ρ c (Proc.devRef .tc main_v55)) = _
  rw [W7_v53, W7_main_arg5, W7_v54, W7_main_arg7, W7_v55]
  exact headRows_eq _ _ _ _ _ _ _

end Cert.KernelIdeal.Chain

end
-- ==== Proof.RefNet.lean ====
/-
  The reference program's result term IS the network of its arguments: its host operations, read in order, are the
  degree normalisations, the aggregation, the dense layer, the same again over the first layer's output (the
  normalisations computed a second time from the same index arrays: the same terms), and the classifier.
-/
import proofs.«136340_j12859132084712_1_alg».proof.Proof.RefRun
import proofs.«136340_j12859132084712_1_alg».proof.Proof.Spec

set_option maxRecDepth 16384

noncomputable section

namespace Cert.ReferenceIdeal.Net

open Cert.ReferenceIdeal Cert.ReferenceIdeal.Gen Cert.ReferenceIdeal.ValueP Cert.Gcn
open Idealize.ShloMosaic Idealize.ShloMosaic.TcCoe Idealize.SL.Sem

variable {F : FTy → Type} [FloatOps F]

/-- The run's composed term, folded into the network's stages. -/
theorem result_eq (m : (ℓ : Loc nD τ sig) → Buf (Elt F) ℓ) (c : Dev nD) :
    res_main_v85 (F := F) m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := by
  unfold res_main_v85 net classify denseRelu aggregate aggregateWith rowScale wrapped degNorm
  rfl

end Cert.ReferenceIdeal.Net

end
-- ==== Proof.lean ====
/-
  Two graph-convolution layers and a classifier over 50000 nodes and 800000 edges: the kernel program computes each
  dense stage max(agg · W + b, 0) (and, fused into the second, h · Wfc + bfc) in a pallas_call over 25 blocks of 2000
  rows, with the degree normalisation, the gather and the scatter-add of each aggregation as host operations around the
  calls; the reference computes everything on the host. On the extended reals the two agree: the changes of float
  format inside the kernels are the identity, a block's product into a zero accumulator is the plain sum over the 128
  features, each output row depends on the same row of the input only, so the 25 blocks tile one whole-array function,
  and the host operations of the two programs are the same operations on the same values.

  The three frames: the kernel programs' are the generated frame certificates; the reference's is its run with the
  result dropped. The idealization rewrote nothing. For the equal results, both runs are stated with the same value,
  the network `Cert.Gcn.net` of the nine arguments.
-/
import proofs.«136340_j12859132084712_1_alg».proof.Defs
import proofs.«136340_j12859132084712_1_alg».proof.Proof.Gen.Kernel
import proofs.«136340_j12859132084712_1_alg».proof.Proof.Gen.Kernel.Skeleton
import proofs.«136340_j12859132084712_1_alg».proof.Proof.Gen.Kernel.Launch
import proofs.«136340_j12859132084712_1_alg».proof.Proof.Gen.Kernel.Points
import proofs.«136340_j12859132084712_1_alg».proof.Proof.Gen.Kernel.Frame
import proofs.«136340_j12859132084712_1_alg».proof.Proof.Gen.KernelIdeal
import proofs.«136340_j12859132084712_1_alg».proof.Proof.Gen.KernelIdeal.Skeleton
import proofs.«136340_j12859132084712_1_alg».proof.Proof.Gen.KernelIdeal.Launch
import proofs.«136340_j12859132084712_1_alg».proof.Proof.Gen.KernelIdeal.Points
import proofs.«136340_j12859132084712_1_alg».proof.Proof.Gen.KernelIdeal.Frame
import proofs.«136340_j12859132084712_1_alg».proof.Proof.Gen.ReferenceIdeal
import proofs.«136340_j12859132084712_1_alg».proof.Proof.Gen.Pre_finite_inputs
import proofs.«136340_j12859132084712_1_alg».proof.Proof.RunValue
import proofs.«136340_j12859132084712_1_alg».proof.Proof.Chain
import proofs.«136340_j12859132084712_1_alg».proof.Proof.RefRun
import proofs.«136340_j12859132084712_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs to its result with the arguments unchanged; the frame forgets the result. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the network of the arguments in their result buffer. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result_eq m ρ c), (h c).2⟩)
      (Cert.KernelIdeal.RunV.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.Net.result_eq m' c, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
